-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x40, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x40, .f32⟩
  | .hbm, ⟨74, _⟩ => ⟨S1700000x1, .f32⟩
  | .hbm, ⟨75, _⟩ => ⟨S1700000x40, .f32⟩
  | .hbm, ⟨76, _⟩ => ⟨S1700000x40, .f32⟩
  | .hbm, ⟨77, _⟩ => ⟨S_, .f32⟩
  | .hbm, ⟨78, _⟩ => ⟨S100000x40, .f32⟩
  | .hbm, ⟨79, _⟩ => ⟨S1700000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x40, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x40, .f32⟩
  | 112 => ⟨S1700000x1, .f32⟩
  | 113 => ⟨S1700000x40, .f32⟩
  | 114 => ⟨S1700000x40, .f32⟩
  | 115 => ⟨S_, .f32⟩
  | 116 => ⟨S100000x40, .f32⟩
  | 117 => ⟨S1700000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The three dense stages of the two-layer graph convolution, each as ONE function of whole arrays, index by index,
  over the extended reals:
  * `dense1 x w`      — row r of `x` times `w`:  (r, q) ↦ Σₖ x[r,k] · w[k,q];
  * `dense2 a b w`    — bias, rectifier, then the second weight matrix:  (r, q) ↦ Σₖ max (a[r,k] + b[0,k]) 0 · w[k,q];
  * `logSoftmaxRows a b` — bias, then the logarithm of the row's softmax, taken about the row's maximum:
      with z[q] = a[r,q] + b[0,q] and M = max over q of z[q] (from −∞),  (r, q) ↦ (z[q] − M) − log Σ_q' exp (z[q'] − M).
  Every output row depends on the same row of the first operand only, which is why a kernel may compute it block of rows by block
  of rows. Float literals stay as their bit patterns (the zero of the rectifier, the −∞ the maximum starts from): the same word
  stands on both sides of every equation below and is never evaluated.
-/
import Idealize.ShloMosaic.PureOps.Ideal
import Idealize.ShloMosaic.Lib.ValueIdx

noncomputable section

namespace Cert.Gcn

open Idealize.ShloMosaic Idealize.ShloMosaic.ValueIdx

/-- Node features [100000, 128]. -/
abbrev Sx : Shape := ⟨2, ![100000, 128]⟩
/-- First weights [128, 64]. -/
abbrev Sw1 : Shape := ⟨2, ![128, 64]⟩
/-- Hidden features [100000, 64]. -/
abbrev Sh : Shape := ⟨2, ![100000, 64]⟩
/-- First bias as a row [1, 64]. -/
abbrev Sb1 : Shape := ⟨2, ![1, 64]⟩
/-- Second weights [64, 40]. -/
abbrev Sw2 : Shape := ⟨2, ![64, 40]⟩
/-- Class scores [100000, 40]. -/
abbrev So : Shape := ⟨2, ![100000, 40]⟩
/-- Second bias as a row [1, 40]. -/
abbrev Sb2 : Shape := ⟨2, ![1, 40]⟩

/-- Row `r` of the features times the first weight matrix. -/
def dense1 (x : FVec Ideal Sx .f32) (w : FVec Ideal Sw1 .f32) : FVec Ideal Sh .f32 := fun i =>
  ∑ k : Fin 128, x (ix2 ⟨(i 0).val, (i 0).isLt⟩ k) * w (ix2 k ⟨(i 1).val, (i 1).isLt⟩)

/-- Bias and rectifier on row `r`, then the second weight matrix. -/
def dense2 (a : FVec Ideal Sh .f32) (b : FVec Ideal Sb1 .f32) (w : FVec Ideal Sw2 .f32) : FVec Ideal So .f32 := fun i =>
  ∑ k : Fin 64, max (a (ix2 ⟨(i 0).val, (i 0).isLt⟩ k) + b (ix2 ⟨0, Nat.one_pos⟩ k)) (Ideal.ofBits .f32 0x00000000#32)
    * w (ix2 k ⟨(i 1).val, (i 1).isLt⟩)

/-- Row `r` with the bias added. -/
def biased (a : FVec Ideal So .f32) (b : FVec Ideal Sb2 .f32) (r : Fin 100000) : Fin 40 → EReal := fun q =>
  a (ix2 r q) + b (ix2 ⟨0, Nat.one_pos⟩ q)

/-- The row's maximum, folded from −∞. -/
def rowMax (a : FVec Ideal So .f32) (b : FVec Ideal Sb2 .f32) (r : Fin 100000) : EReal :=
  (Finset.univ : Finset (Fin 40)).fold max (Ideal.ofBits .f32 0xFF800000#32) (biased a b r)

/-- Bias, then the logarithm of the row's softmax about the row's maximum. -/
def logSoftmaxRows (a : FVec Ideal So .f32) (b : FVec Ideal Sb2 .f32) : FVec Ideal So .f32 := fun i =>
  (biased a b ⟨(i 0).val, (i 0).isLt⟩ ⟨(i 1).val, (i 1).isLt⟩ - rowMax a b ⟨(i 0).val, (i 0).isLt⟩)
    - Ideal.log (∑ q : Fin 40, Ideal.exp (biased a b ⟨(i 0).val, (i 0).isLt⟩ q - rowMax a b ⟨(i 0).val, (i 0).isLt⟩))

end Cert.Gcn

end
-- ==== Proof.Chains.lean ====
/-
  The host side of the graph convolution, shared by both programs, as named functions of whole arrays.
  * `srcOf e`, `dstOf e` — the two endpoint lists of the edges, each followed by one self loop per node (0, 1, …, 99999);
  * `gatherCol v` — node indices as a gather reads them: a negative index counts from the end (100000 is added), then a column;
  * `degree d` — how many edges end at each node: ones scattered-and-added over the destinations;
  * `invSqrtDeg d` — 1/√degree where the degree is positive, 0 elsewhere;
  * `edgeNorm s d` — per edge, the product of that factor at its two endpoints;
  * `aggregate64 h s d n`, `aggregate40 …` — message passing: gather the source rows of `h`, scale each by the edge's factor,
    scatter-and-add into the destination rows of a zero array.
  The kernel program applies these between its three dense stages and the reference applies the same operations in the same order,
  so no proof below ever opens a gather or a scatter: the two sides are compared with these chains closed.
-/
import proofs.«106655_j32229434589355_1_alg».proof.Proof.Gen.KernelIdeal
import proofs.«106655_j32229434589355_1_alg».proof.Proof.Spec

noncomputable section

namespace Cert.Gcn

open Cert.KernelIdeal Cert.KernelIdeal.Gen Idealize.ShloMosaic

variable {F : FTy → Type} [FloatOps F]

/-- Source endpoints, then the self loops. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Destination endpoints, then the self loops. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Indices as a gather reads them: a negative one counted from the end, then laid out as a column. -/
def gatherCol (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Indices as a scatter reads them: a column. -/
def scatterCol (v : (⟨S1700000, .i32⟩ : BufTy).Contents (Elt F)) : (⟨S1700000x1, .i32⟩ : BufTy).Contents (Elt F) :=
  broadcastInDim S1700000x1 ![0] bcast_S1700000_S1700000x1_0 v

/-- The number of edges ending at each node. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (scatterCol (F := F) d) (broadcastInDim S1700000 ![] bcast_S_S1700000 (constant S_ .f32 0x3F800000#32))

/-- One over the square root of the degree where it is positive, zero elsewhere. -/
def invSqrtDeg (d : (⟨S1700000, .i32⟩ : BufTy).Contents (Elt F)) : (⟨S100000, .f32⟩ : BufTy).Contents (Elt F) :=
  select (cmpf (F := F) .ogt (degree (F := F) d) (broadcastInDim S100000 ![] bcast_S_S100000 (constant S_ .f32 0x00000000#32))) (Host.rsqrt (degree (F := F) d)) (broadcastInDim S100000 ![] bcast_S_S100000 (id (constant S_ .f32 0x00000000#32)))

/-- Per edge: the factor at its source times the factor at its destination. -/
def edgeNorm (s d : (⟨S1700000, .i32⟩ : BufTy).Contents (Elt F)) : (⟨S1700000, .f32⟩ : BufTy).Contents (Elt F) :=
  mulf (Host.gather gather_S100000_S1700000x1_S1700000_n_0_n_n_0_1_1 (invSqrtDeg (F := F) d) (gatherCol (F := F) s)) (Host.gather gather_S100000_S1700000x1_S1700000_n_0_n_n_0_1_1 (invSqrtDeg (F := F) d) (gatherCol (F := F) d))

/-- Message passing over 64 features. -/
def aggregate64 (h : (⟨S100000x64, .f32⟩ : BufTy).Contents (Elt F)) (s d : (⟨S1700000, .i32⟩ : BufTy).Contents (Elt F)) (n : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (scatterCol (F := F) d) (mulf (Host.gather gather_S100000x64_S1700000x1_S1700000x64_1_0_n_n_0_1_164 h (gatherCol (F := F) s)) (broadcastInDim S1700000x64 ![0, 1] bcast_S1700000x1_S1700000x64_0_1 (broadcastInDim S1700000x1 ![0] bcast_S1700000_S1700000x1_0 n)))

/-- Message passing over 40 features. -/
def aggregate40 (h : (⟨S100000x40, .f32⟩ : BufTy).Contents (Elt F)) (s d : (⟨S1700000, .i32⟩ : BufTy).Contents (Elt F)) (n : (⟨S1700000, .f32⟩ : BufTy).Contents (Elt F)) : (⟨S100000x40, .f32⟩ : BufTy).Contents (Elt F) :=
  Host.scatterAdd scatter_S100000x40_S1700000x1_S1700000x40_1_0_0_1 (broadcastInDim S100000x40 ![] bcast_S_S100000x40 (constant S_ .f32 0x00000000#32)) (scatterCol (F := F) d) (mulf (Host.gather gather_S100000x40_S1700000x1_S1700000x40_1_0_n_n_0_1_140 h (gatherCol (F := F) s)) (broadcastInDim S1700000x40 ![0, 1] bcast_S1700000x1_S1700000x40_0_1 (broadcastInDim S1700000x1 ![0] bcast_S1700000_S1700000x1_0 n)))

/-- The whole network as ONE term of the six argument arrays: features times first weights; message passing; bias, rectifier and
    second weights; message passing again; bias and the rows' log-softmax. The two biases enter as rows ([64] read as [1, 64], [40] as [1, 40]). -/
def network (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) :
    (⟨S100000x40, .f32⟩ : BufTy).Contents (Elt Ideal) :=
  logSoftmaxRows
    (aggregate40 (F := Ideal)
      (dense2 (aggregate64 (F := Ideal) (dense1 x w1) (srcOf (F := Ideal) e) (dstOf (F := Ideal) e) (edgeNorm (F := Ideal) (srcOf (F := Ideal) e) (dstOf (F := Ideal) e)))
        (shapeCast S1x64 b1 shapeCasts_S64_S1x64) w2)
      (srcOf (F := Ideal) e) (dstOf (F := Ideal) e) (edgeNorm (F := Ideal) (srcOf (F := Ideal) e) (dstOf (F := Ideal) e)))
    (shapeCast S1x40 b2 shapeCasts_S40_S1x40)

end Cert.Gcn

end
-- ==== Proof.FoldNorm.lean ====
import proofs.«106655_j32229434589355_1_alg».proof.Proof.Gen.KernelIdeal.Frame
import proofs.«106655_j32229434589355_1_alg».proof.Proof.Chains
import Idealize.ShloMosaic.Lib.StableHlo.Run

set_option maxRecDepth 16384

noncomputable section

open Idealize.ShloMosaic Idealize.ShloMosaic.TcCoe Idealize.SL.Sem

namespace Cert.Gcn

open Cert.KernelIdeal Cert.KernelIdeal.Gen

variable {F : FTy → Type} [FloatOps F]
variable (m : (ℓ : Loc nD τ sig) → Buf (Elt F) ℓ) (ρ : Dev nD → PrngReg)

/-! What the host operations before the first region leave, read at the buffers later stretches use: the two endpoint lists,
    the edge factors, and the argument arrays untouched. -/

/-! ## After the first stretch: the endpoint lists, the degree test, the inverse square root, the zero constant -/

theorem W1_src (c : Dev nD) :
    W1 m ρ c (Proc.devRef .tc main_v3) = srcOf (F := F) (m ((c : Thread nD τ).loc main_arg1)) := by
  show StableHlo.after hostOps0 (W0 m ρ c) (Proc.devRef .tc main_v3) = _
  after_results
  rfl

theorem W1_dst (c : Dev nD) :
    W1 m ρ c (Proc.devRef .tc main_v6) = dstOf (F := F) (m ((c : Thread nD τ).loc main_arg1)) := by
  show StableHlo.after hostOps0 (W0 m ρ c) (Proc.devRef .tc main_v6) = _
  after_results
  rfl

/-- The test "the degree is positive". -/
theorem W1_v12 (c : Dev nD) :
    W1 m ρ c (Proc.devRef .tc main_v12)
      = cmpf (F := F) .ogt (degree (F := F) (dstOf (F := F) (m ((c : Thread nD τ).loc main_arg1)))) (broadcastInDim S100000 ![] bcast_S_S100000 (constant S_ .f32 0x00000000#32)) := by
  show StableHlo.after hostOps0 (W0 m ρ c) (Proc.devRef .tc main_v12) = _
  after_results
  rfl

/-- The inverse square root of the degree, everywhere. -/
theorem W1_v13 (c : Dev nD) :
    W1 m ρ c (Proc.devRef .tc main_v13) = Host.rsqrt (degree (F := F) (dstOf (F := F) (m ((c : Thread nD τ).loc main_arg1)))) := by
  show StableHlo.after hostOps0 (W0 m ρ c) (Proc.devRef .tc main_v13) = _
  after_results
  rfl

/-- The zero the selection falls back to. -/
theorem W1_cst2 (c : Dev nD) :
    W1 m ρ c (Proc.devRef .tc main_cst_2) = (constant S_ .f32 0x00000000#32 : (⟨S_, .f32⟩ : BufTy).Contents (Elt F)) := by
  show StableHlo.after hostOps0 (W0 m ρ c) (Proc.devRef .tc main_cst_2) = _
  after_results

/-! ## After the selection: the inverse square root of the degree where positive -/

/-- The selection, from any contents: it reads the test, the inverse square root and the zero constant. -/
theorem select_of (V : Valuation τ sig (Elt F)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  after_results_simp
  simp only [StableHlo.TRef.ofBuf, StableHlo.TRef.toBuf, cast_eq]

theorem W2_v14 (c : Dev nD) :
    W2 m ρ c (Proc.devRef .tc main_v14) = invSqrtDeg (F := F) (dstOf (F := F) (m ((c : Thread nD τ).loc main_arg1))) :=
  (select_of (W1 m ρ c)).trans (by rw [W1_v12 m ρ c, W1_v13 m ρ c, W1_cst2 m ρ c]; rfl)

/-- The selection writes neither endpoint list. -/
theorem W2_src (c : Dev nD) :
    W2 m ρ c (Proc.devRef .tc main_v3) = srcOf (F := F) (m ((c : Thread nD τ).loc main_arg1)) :=
  (StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_src m ρ c)

theorem W2_dst (c : Dev nD) :
    W2 m ρ c (Proc.devRef .tc main_v6) = dstOf (F := F) (m ((c : Thread nD τ).loc main_arg1)) :=
  (StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W1_dst m ρ c)

/-! ## At the first region's entry -/

/-- The edge factors, from any contents: they read the node factor and the two endpoint lists. -/
theorem norm_of (V : Valuation τ sig (Elt F)) :
    StableHlo.after hostOps0_2 V (Proc.devRef .tc main_v29)
      = mulf (Host.gather gather_S100000_S1700000x1_S1700000_n_0_n_n_0_1_1 (V (Proc.devRef .tc main_v14)) (gatherCol (F := F) (V (Proc.devRef .tc main_v3))))
          (Host.gather gather_S100000_S1700000x1_S1700000_n_0_n_n_0_1_1 (V (Proc.devRef .tc main_v14)) (gatherCol (F := F) (V (Proc.devRef .tc main_v6)))) := by
  after_results_simp
  rfl

theorem entry0_src (c : Dev nD) :
    W3 m ρ c (Proc.devRef .tc main_v3) = srcOf (F := F) (m ((c : Thread nD τ).loc main_arg1)) := by
  exact (StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_src m ρ c)

theorem entry0_dst (c : Dev nD) :
    W3 m ρ c (Proc.devRef .tc main_v6) = dstOf (F := F) (m ((c : Thread nD τ).loc main_arg1)) := by
  exact (StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_dst m ρ c)

theorem entry0_norm (c : Dev nD) :
    W3 m ρ c (Proc.devRef .tc main_v29)
      = edgeNorm (F := F) (srcOf (F := F) (m ((c : Thread nD τ).loc main_arg1))) (dstOf (F := F) (m ((c : Thread nD τ).loc main_arg1))) := by
  exact (norm_of (W2 m ρ c)).trans (by rw [W2_v14 m ρ c, W2_src m ρ c, W2_dst m ρ c]; rfl)

theorem entry0_arg0 (c : Dev nD) : W3 m ρ c (Proc.devRef .tc main_arg0) = m ((c : Thread nD τ).loc main_arg0) := by
  exact
    calc W3 m ρ c (Proc.devRef .tc main_arg0)
      _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg0) := rfl
theorem entry0_arg2 (c : Dev nD) : W3 m ρ c (Proc.devRef .tc main_arg2) = m ((c : Thread nD τ).loc main_arg2) := by
  exact
    calc W3 m ρ c (Proc.devRef .tc main_arg2)
      _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg2) := rfl
theorem entry0_arg3 (c : Dev nD) : W3 m ρ c (Proc.devRef .tc main_arg3) = m ((c : Thread nD τ).loc main_arg3) := by
  exact
    calc W3 m ρ c (Proc.devRef .tc main_arg3)
      _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg3) := rfl
theorem entry0_arg4 (c : Dev nD) : W3 m ρ c (Proc.devRef .tc main_arg4) = m ((c : Thread nD τ).loc main_arg4) := by
  exact
    calc W3 m ρ c (Proc.devRef .tc main_arg4)
      _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg4) := rfl
theorem entry0_arg5 (c : Dev nD) : W3 m ρ c (Proc.devRef .tc main_arg5) = m ((c : Thread nD τ).loc main_arg5) := by
  exact
    calc W3 m ρ c (Proc.devRef .tc main_arg5)
      _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
      _ = m ((c : Thread nD τ).loc main_arg5) := rfl

end Cert.Gcn

end
-- ==== Proof.Layer1.lean ====
import proofs.«106655_j32229434589355_1_alg».proof.Proof.Gen.KernelIdeal.Frame
import proofs.«106655_j32229434589355_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn

open Cert.KernelIdeal Cert.KernelIdeal.Gen

namespace Layer1

/-! ## One block's product at an index -/

/-- The left operand of the block product is read at the output's row … -/
theorem lhs_blockdot_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and at the contracted coordinate. -/
theorem lhs_blockdot_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand is read at the contracted coordinate … -/
theorem rhs_blockdot_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … and at the output's column. -/
theorem rhs_blockdot_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of what the body stores is row p of the feature block times column q of the weights: the narrowing
    of both operands is the identity on the extended reals and the accumulator starts from zero. -/
theorem block_product_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  refine (Ideal.matmul_constant_zero_apply dot_S5000x128_S128x64_S5000x64_1_0_0_1_n_n none (truncf .bf16 x0 bitsLt_bf16_f32) (truncf .bf16 x1 bitsLt_bf16_f32) (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er, truncf_apply, truncf_apply]

/-! ## From the twenty blocks to the array -/

/-- The specification at an index, unfolded. -/
theorem dense1_apply (x : FVec Ideal Sx .f32) (w : FVec Ideal Sw1 .f32) (i : Sh.Idx) :
    dense1 x w i = ∑ k : Fin 128, x (ix2 ⟨(i 0).val, (i 0).isLt⟩ k) * w (ix2 k ⟨(i 1).val, (i 1).isLt⟩) := rfl

/-- The zero offset of a whole-buffer access. -/
theorem origin2 : (![0, 0] : Fin 2 → Nat) = fun _ => 0 := funext fun a => by fin_cases a <;> rfl

/-- The printed index maps over the grid: at point t the features' and the output's blocks are the t-th along the rows
    and the only one along the columns; the weights' block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the hidden array lies in the block written back at point t iff, on each axis, its coordinate lies in
    the block's range. -/
theorem mem_rows_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

variable (V : (c : Dev nD) → (b : Ref sig .tc) → Buf (Elt Ideal) ((c : Thread nD τ).loc b))

/-- What point t writes back is block t of the product: entry (p, q) of the body's result is row p of the t-th feature
    block times column q of the weights, and row p of that block is row 5000 t + p of the features. -/
theorem flushed_rows (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x64) origin2]
  obtain ⟨e00, e01, e10, e11, e20, e21⟩ := block_indices t
  funext j
  show k0_pay1 (iblk0 V c 0 t) (iblk0 V c 1 t) j
      = dense1 (V c main_arg0) (V c main_arg2) (((cfg0.win 2).blk t).view.emb j)
  obtain ⟨p, q, rfl⟩ : ∃ (p : Fin 5000) (q : Fin 64), j = ix2 p q := ⟨j 0, j 1, eq_ix2 (n0 := 5000) (n1 := 64) j⟩
  refine (block_product_apply (iblk0 V c 0 t) (iblk0 V c 1 t) p q).trans ?_
  rw [dense1_apply]
  refine Finset.sum_congr rfl fun k _ => ?_
  congr 1
  · show V c main_arg0 (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_arg2 (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

end Layer1

open Layer1

variable (V : (c : Dev nD) → (b : Ref sig .tc) → Buf (Elt Ideal) ((c : Thread nD τ).loc b))

/-- After the first region the hidden array holds the features times the first weights, whatever the region found in its
    other buffers: every 5000-row block the region writes back is that block of `dense1`, and the twenty blocks tile the array. -/
theorem layer1_array (c : Dev nD) :
    (dat0 V c).arrAt 2 cfg0.N = dense1 (V c main_arg0) (V c main_arg2) := by
  refine (dat0 V c).arrAt_eq_of_cover 2 (dense1 (V c main_arg0) (V c main_arg2)) (fun t _ => flushed_rows V c t) fun i => ?_
  have hi0 : (i 0).val < 100000 := (i 0).isLt
  have hi1 : (i 1).val < 64 := (i 1).isLt
  have hN : cfg0.N = 20 := rfl
  have ht : (i 0).val / 5000 < cfg0.N := by rw [hN]; omega
  obtain ⟨-, -, -, -, e20, e21⟩ := block_indices ⟨(i 0).val / 5000, ht⟩
  refine ⟨⟨(i 0).val / 5000, ht⟩, flush0_2 _, ?_⟩
  rw [mem_rows_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e21]; omega

end Cert.Gcn

end
-- ==== Proof.Layer2.lean ====
import proofs.«106655_j32229434589355_1_alg».proof.Proof.Gen.KernelIdeal.Frame
import proofs.«106655_j32229434589355_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn

open Cert.KernelIdeal Cert.KernelIdeal.Gen

variable (V : (c : Dev nD) → (b : Ref sig .tc) → Buf (Elt Ideal) ((c : Thread nD τ).loc b))

/-! ## The second layer's arithmetic at one entry -/

/-- The left operand's row coordinate under the contraction is the result's row. -/
theorem layer2_lhs_row (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl

/-- The left operand's column coordinate is the contracted one. -/
theorem layer2_lhs_col (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q

/-- The right operand's row coordinate is the contracted one. -/
theorem layer2_rhs_row (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q

/-- The right operand's column coordinate is the result's column. -/
theorem layer2_rhs_col (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-- Entry `(p, q)` of the body's result on a block of 5000 rows: the rectified, biased row `p` of the block against
    column `q` of the second weights. -/
theorem layer2_block_apply (x0 : Vec Ideal S5000x64 .f32) (x1 : Vec Ideal S1x64 .f32) (x2 : Vec Ideal S64x40 .f32)
    (p : Fin 5000) (q : Fin 40) :
    k1_pay1 (F := Ideal) x0 x1 x2 (ix2 p q)
      = ∑ k : Fin 64, max (x0 (ix2 p k) + x1 (ix2 ⟨0, Nat.one_pos⟩ k)) (Ideal.ofBits .f32 0x00000000#32) * x2 (ix2 k q) := by
  unfold k1_pay1
  show FloatOps.matmul dot_S5000x64_S64x40_S5000x40_1_0_0_1_n_n none _ _ (constant (F := Ideal) S5000x40 .f32 0x00000000#32) (ix2 p q) = _
  rw [Ideal.matmul_constant_zero_apply,
    ← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q)
      ((ValueIdx.contrEquiv1 dot_S5000x64_S64x40_S5000x40_1_0_0_1_n_n 64 rfl rfl).symm k) = ix2 p k :=
    funext fun a => Fin.ext (by
      match a with
      | ⟨0, _⟩ => exact layer2_lhs_row _ _
      | ⟨1, _⟩ => exact (layer2_lhs_col _ _).trans hk)
  have er : dot_S5000x64_S64x40_S5000x40_1_0_0_1_n_n.rhsIdx (ix2 p q)
      ((ValueIdx.contrEquiv1 dot_S5000x64_S64x40_S5000x40_1_0_0_1_n_n 64 rfl rfl).symm k) = ix2 k q :=
    funext fun a => Fin.ext (by
      match a with
      | ⟨0, _⟩ => exact (layer2_rhs_row _ _).trans hk
      | ⟨1, _⟩ => exact layer2_rhs_col _ _)
  rw [el, er, truncf_apply, truncf_apply, maximumf_apply, addf_apply, broadcast_apply, shapeCast_self, shapeCast_self,
    broadcastTo_1b_ab_apply]
  rfl

/-- The same entry at any index of the block, in the form the specification is written in. -/
theorem layer2_block_entry (x0 : Vec Ideal S5000x64 .f32) (x1 : Vec Ideal S1x64 .f32) (x2 : Vec Ideal S64x40 .f32)
    (j : S5000x40.Idx) :
    k1_pay1 (F := Ideal) x0 x1 x2 j
      = ∑ k : Fin 64, max (x0 (ix2 ⟨(j 0).val, (j 0).isLt⟩ k) + x1 (ix2 ⟨0, Nat.one_pos⟩ k)) (Ideal.ofBits .f32 0x00000000#32)
          * x2 (ix2 k ⟨(j 1).val, (j 1).isLt⟩) := by
  obtain ⟨p, q, rfl⟩ : ∃ (p : Fin 5000) (q : Fin 40), j = ix2 p q := ⟨j 0, j 1, eq_ix2 j⟩
  exact layer2_block_apply x0 x1 x2 p q

/-! ## From the blocks of rows to the whole array -/

/-- The body's rectangles start at the origin. -/
theorem layer2_origin : (![0, 0] : Fin 2 → Nat) = fun _ => 0 := funext fun a => by fin_cases a <;> rfl

/-- Where the four windows' blocks sit at grid point `t`: the hidden features and the result move down by one block of
    rows per point, the bias row and the weights stay whole. -/
theorem layer2_block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is rows `5000 t … 5000 t + 4999` of `dense2` of the three arrays the region reads. -/
theorem layer2_flushed (c : Dev nD) (t : Fin cfg1.N) :
    (dat1 V c).flushed 3 t
      = ((cfg1.win 3).blk t).view.read (Elt Ideal) (dense2 (V c main_v43) (V c main_v44) (V c main_arg4)) := by
  show (cfg1.win 3).cut (grid1.coords t) ((dat1 V c).after 3 t) = _
  rw [after1_3]
  unfold out1_3
  rw [View.canon_unit_zero layer2_origin]
  simp only [View.ld_unit_zero (S := S5000x64) layer2_origin, View.ld_unit_zero (S := S1x64) layer2_origin,
    View.ld_unit_zero (S := S64x40) layer2_origin]
  obtain ⟨e00, e01, e10, e11, e20, e21, e30, e31⟩ := layer2_block_indices t
  funext j
  refine (layer2_block_entry (iblk1 V c 0 t) (iblk1 V c 1 t) (iblk1 V c 2 t) j).trans ?_
  show _ = dense2 (V c main_v43) (V c main_v44) (V c main_arg4) (((cfg1.win 3).blk t).view.emb j)
  unfold dense2
  refine Finset.sum_congr rfl fun k _ => ?_
  have hj0 : (j 0).val < 5000 := (j 0).isLt
  have hj1 : (j 1).val < 40 := (j 1).isLt
  have hk : k.val < 64 := k.isLt
  have ha : iblk1 V c 0 t (ix2 ⟨(j 0).val, (j 0).isLt⟩ k)
      = V c main_v43 (ix2 ⟨((((cfg1.win 3).blk t).view.emb j) 0).val, ((((cfg1.win 3).blk t).view.emb j) 0).isLt⟩ k) := by
    show V c main_v43 (((cfg1.win 0).blk t).view.emb (ix2 ⟨(j 0).val, (j 0).isLt⟩ k)) = _
    refine congrArg (V c main_v43) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 64 + 1 * k.val = k.val
      omega
  have hb : iblk1 V c 1 t (ix2 ⟨0, Nat.one_pos⟩ k) = V c main_v44 (ix2 ⟨0, Nat.one_pos⟩ k) := by
    show V c main_v44 (((cfg1.win 1).blk t).view.emb (ix2 ⟨0, Nat.one_pos⟩ k)) = _
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 64 + 1 * k.val = k.val
      omega
  have hw : iblk1 V c 2 t (ix2 k ⟨(j 1).val, (j 1).isLt⟩)
      = V c main_arg4 (ix2 k ⟨((((cfg1.win 3).blk t).view.emb j) 1).val, ((((cfg1.win 3).blk t).view.emb j) 1).isLt⟩) := by
    show V c main_arg4 (((cfg1.win 2).blk t).view.emb (ix2 k ⟨(j 1).val, (j 1).isLt⟩)) = _
    refine congrArg (V c main_arg4) (funext fun a => Fin.ext ?_)
    match a with
    | ⟨0, _⟩ =>
      show win1_2.index t (0 : Fin 2) * 64 + 1 * k.val = k.val
      omega
    | ⟨1, _⟩ =>
      show win1_2.index t (1 : Fin 2) * 40 + 1 * (j 1).val = win1_3.index t (1 : Fin 2) * 40 + 1 * (j 1).val
      omega
  rw [ha, hb, hw]

/-- An index of the result array lies in point `t`'s block iff each coordinate lies in the block's range on its axis. -/
theorem layer2_mem_block (t : Fin cfg1.N) (i : S100000x40.Idx) :
    i ∈ ((cfg1.win 3).blk t).view.set
      ↔ ∀ a : Fin 2, win1_3.index t a * S5000x40.size a ≤ (i a).val
          ∧ (i a).val < win1_3.index t a * S5000x40.size a + S5000x40.size a := by
  show i ∈ ((View.whole main_v45).slice (win1_3.rect t)).set ↔ _
  rw [View.set_slice_whole, Rect.mem_set_unit]
  exact Iff.rfl

/-- Row `r` of the result lies in the block of grid point `r / 5000`: the twenty blocks cover the array. -/
theorem layer2_cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, e30, e31⟩ := layer2_block_indices t
  refine ⟨t, flush1_3 t, ?_⟩
  rw [layer2_mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 40 ≤ (i 1).val ∧ (i 1).val < win1_3.index t (1 : Fin 2) * 40 + 40
    omega

/-- After the second region its output array holds `dense2` of the aggregated hidden features, the bias row and the second
    weights as the region found them. -/
theorem layer2_array (c : Dev nD) :
    (dat1 V c).arrAt 3 cfg1.N = dense2 (V c main_v43) (V c main_v44) (V c main_arg4) :=
  (dat1 V c).arrAt_eq_of_cover 3 (dense2 (V c main_v43) (V c main_v44) (V c main_arg4))
    (fun t _ => layer2_flushed V c t) layer2_cover

end Cert.Gcn

end
-- ==== Proof.LogSoftmax.lean ====
import proofs.«106655_j32229434589355_1_alg».proof.Proof.Gen.KernelIdeal.Frame
import proofs.«106655_j32229434589355_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn

open Cert.KernelIdeal Cert.KernelIdeal.Gen

variable (V : (c : Dev nD) → (b : Ref sig .tc) → Buf (Elt Ideal) ((c : Thread nD τ).loc b))

namespace LogSoftmax

/-! ## Two keepdims layout readings: a vector as a column, a column spread over the lanes -/

/-- An `[a]` vector cast to a column `[a, 1]` reads, at `(p, u)`, the vector at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The biased scores of a block: the block's entry plus the bias row's entry of the same lane. -/
theorem biasedBlock_apply (x0 : FVec Ideal S5000x40 .f32) (x1 : FVec Ideal S1x40 .f32)
    (h0 : S5000x40.ShapeCasts S5000x40) (h1 : S1x40.ShapeCasts S1x40) (hb : S1x40.Broadcasts S5000x40)
    (p : Fin 5000) (q : Fin 40) :
    addf (shapeCast S5000x40 x0 h0) (broadcastTo S5000x40 (shapeCast S1x40 x1 h1) hb) (ix2 p q)
      = x0 (ix2 p q) + x1 (ix2 ⟨0, Nat.one_pos⟩ q) := by
  rw [addf_apply, shapeCast_self, shapeCast_self]
  exact congrArg (x0 (ix2 p q) + ·) (broadcastTo_1b_ab_apply x1 hb p q)

/-- The lane maximum of a block's row: the fold of `max` from −∞ over the row's forty entries. -/
theorem laneMax_apply (z : FVec Ideal S5000x40 .f32) (h : S5000x40.Reduces [1] S5000)
    (hφ : FKind.Formats .f32) (hacc : (0xFF800000#32 : BitVec 32) = 0xFF800000#32) (p : Fin 5000) :
    multiReduction .maximumf [1] S5000 z 0xFF800000#32 h hφ hacc (ix1 p)
      = (Finset.univ : Finset (Fin 40)).fold max (Ideal.ofBits .f32 0xFF800000#32) (fun q => z (ix2 p q)) := by
  refine (Ideal.multiReduction_maximumf_single z 0xFF800000#32 h hφ hacc (ix1 p)).trans ?_
  show (Finset.univ : Finset (Fin 40)).fold max (Ideal.ofBits .f32 0xFF800000#32) (z ∘ h.lift (ix1 p)) = _
  exact congrArg (fun f : Fin 40 → EReal => (Finset.univ : Finset (Fin 40)).fold max (Ideal.ofBits .f32 0xFF800000#32) f)
    (funext fun q => congrArg z (Shape.idx_ext₂ rfl rfl))

/-- The lane sum of a block's row: the sum of the row's forty entries. -/
theorem laneSum_apply (z : FVec Ideal S5000x40 .f32) (h : S5000x40.Reduces [1] S5000)
    (hφ : FKind.Formats .f32) (hacc : (0x00000000#32 : BitVec 32) = 0x00000000#32) (p : Fin 5000) :
    multiReduction .add [1] S5000 z 0x00000000#32 h hφ hacc (ix1 p) = ∑ q : Fin 40, z (ix2 p q) := by
  refine (Ideal.multiReduction_add_single z 0x00000000#32 h hφ hacc (ix1 p)).trans ?_
  show ∑ q : Fin 40, z (h.lift (ix1 p) q) = _
  refine Finset.sum_congr rfl fun q _ => congrArg z ?_
  exact Shape.idx_ext₂ rfl rfl

/-- The logarithm of the softmax of one row `z` of forty scores, taken about the row's maximum (folded from −∞), at lane `q`. -/
def rowLogSoftmax (z : Fin 40 → EReal) (q : Fin 40) : EReal :=
  (z q - (Finset.univ : Finset (Fin 40)).fold max (Ideal.ofBits .f32 0xFF800000#32) z)
    - Ideal.log (∑ q' : Fin 40, Ideal.exp (z q' - (Finset.univ : Finset (Fin 40)).fold max (Ideal.ofBits .f32 0xFF800000#32) z))

/-- The specification, row by row: entry `(r, q)` is the row function of the biased row `r`. -/
theorem logSoftmaxRows_apply (a : FVec Ideal So .f32) (b : FVec Ideal Sb2 .f32) (i : So.Idx) :
    logSoftmaxRows a b i = rowLogSoftmax (biased a b ⟨(i 0).val, (i 0).isLt⟩) ⟨(i 1).val, (i 1).isLt⟩ := rfl

/-- Row `p` of a block with the bias row added, lane by lane. -/
def blockRow (x0 : FVec Ideal S5000x40 .f32) (x1 : FVec Ideal S1x40 .f32) (p : Fin 5000) : Fin 40 → EReal := fun q =>
  x0 (ix2 p q) + x1 (ix2 ⟨0, Nat.one_pos⟩ q)

/-- The exponential and the logarithm of a vector are taken entry by entry. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- THE BODY'S PAYLOAD at `(p, q)`: the row function of row `p` of the block with the bias row added, at lane `q`. Each
    reduction is read at the row, each keepdims column at its one entry, the two lane broadcasts at the column's entry. -/
theorem pay_ix2 (x0 : Vec Ideal S5000x40 .f32) (x1 : Vec Ideal S1x40 .f32) (p : Fin 5000) (q : Fin 40) :
    k2_pay1 x0 x1 (ix2 p q) = rowLogSoftmax (blockRow x0 x1 p) q := by
  unfold k2_pay1
  dsimp only
  rw [subf_apply, subf_apply, broadcastTo_a1_ab_apply, broadcastTo_a1_ab_apply, log_apply, shapeCast_a_a1_apply,
    shapeCast_a_a1_apply, laneSum_apply]
  simp only [exp_apply, subf_apply, broadcastTo_a1_ab_apply, shapeCast_a_a1_apply, biasedBlock_apply]
  rw [laneMax_apply]
  simp only [biasedBlock_apply]
  rfl

/-- The payload at any index of the block, by its two coordinates. -/
theorem pay_apply (x0 : Vec Ideal S5000x40 .f32) (x1 : Vec Ideal S1x40 .f32) (i : S5000x40.Idx) :
    k2_pay1 x0 x1 i = rowLogSoftmax (blockRow x0 x1 ⟨(i 0).val, (i 0).isLt⟩) ⟨(i 1).val, (i 1).isLt⟩ :=
  (congrArg (k2_pay1 x0 x1) (eq_ix2 i)).trans (pay_ix2 x0 x1 (i 0) (i 1))

/-- The specification at an index whose coordinates are `r` and `q`. -/
theorem logSoftmaxRows_at (a : FVec Ideal So .f32) (b : FVec Ideal Sb2 .f32) (i : So.Idx) (r : Fin 100000) (q : Fin 40)
    (h0 : (i 0).val = r.val) (h1 : (i 1).val = q.val) : logSoftmaxRows a b i = rowLogSoftmax (biased a b r) q := by
  rw [logSoftmaxRows_apply]
  exact congrArg₂ (fun r q => rowLogSoftmax (biased a b r) q) (Fin.ext h0) (Fin.ext h1)

/-! ## From the blocks to the array -/

theorem zeroOffsets : (![0, 0] : Fin 2 → Nat) = fun _ => 0 := funext fun a => by fin_cases a <;> rfl

/-- The printed index maps over the grid: at point `t` the scores' block and the result's block are block `(t, 0)` of their
    arrays, the bias row's block is the whole row. -/
theorem blockIndex_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The scores' block at point `t` holds rows `5000 t … 5000 t + 4999` of the scores. -/
theorem scoresBlock_apply (c : Dev nD) (t : Fin cfg2.N) (p : Fin 5000) (q : Fin 40) (r : Fin 100000)
    (hr : r.val = t.val * 5000 + p.val) :
    (iblk2 V c 0 t : Vec Ideal S5000x40 .f32) (ix2 p q) = (V c main_v58 : FVec Ideal So .f32) (ix2 r q) := by
  obtain ⟨e0, e1, -⟩ := blockIndex_facts t
  unfold iblk2
  rw [View.read_apply]
  show V c main_v58 _ = V c main_v58 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 40 + 1 * q.val = q.val; rw [e1]; omega

/-- The bias row's block at every point is the bias row. -/
theorem biasBlock_apply (c : Dev nD) (t : Fin cfg2.N) (q : Fin 40) :
    (iblk2 V c 1 t : Vec Ideal S1x40 .f32) (ix2 ⟨0, Nat.one_pos⟩ q) = (V c main_v59 : FVec Ideal Sb2 .f32) (ix2 ⟨0, Nat.one_pos⟩ q) := by
  obtain ⟨-, -, e2, e3, -⟩ := blockIndex_facts t
  unfold iblk2
  rw [View.read_apply]
  show V c main_v59 _ = V c main_v59 _
  congr 1
  funext a
  apply Fin.ext
  match a with
  | ⟨0, _⟩ => show win2_1.index t (0 : Fin 2) * 1 + 1 * 0 = 0; rw [e2]
  | ⟨1, _⟩ => show win2_1.index t (1 : Fin 2) * 40 + 1 * q.val = q.val; rw [e3]; omega

/-- Row `p` of the blocks at point `t`, biased, is row `5000 t + p` of the arrays, biased. -/
theorem blockRow_eq_biased (c : Dev nD) (t : Fin cfg2.N) (p : Fin 5000) (r : Fin 100000) (hr : r.val = t.val * 5000 + p.val) :
    blockRow (iblk2 V c 0 t) (iblk2 V c 1 t) p = biased (V c main_v58) (V c main_v59) r := by
  funext q
  exact congrArg₂ (fun u v : EReal => u + v) (scoresBlock_apply V c t p q r hr) (biasBlock_apply V c t q)

/-- WHAT POINT `t` WRITES BACK is block `t` of the row-wise log-softmax of the biased scores. -/
theorem flushed_rows (c : Dev nD) (t : Fin cfg2.N) :
    (dat2 V c).flushed 2 t
      = ((cfg2.win 2).blk t).view.read (Elt Ideal) (logSoftmaxRows (V c main_v58) (V c main_v59)) := by
  show (cfg2.win 2).cut (grid2.coords t) ((dat2 V c).after 2 t) = _
  rw [after2_2]
  unfold out2_2
  rw [View.canon_unit_zero zeroOffsets]
  simp only [View.ld_unit_zero (S := S5000x40) zeroOffsets, View.ld_unit_zero (S := S1x40) zeroOffsets]
  obtain ⟨-, -, -, -, e4, e5⟩ := blockIndex_facts t
  have ht : t.val < 20 := t.isLt
  funext j
  have hj0 : (j 0).val < 5000 := (j 0).isLt
  have hj1 : (j 1).val < 40 := (j 1).isLt
  refine (pay_apply (iblk2 V c 0 t) (iblk2 V c 1 t) _).trans ?_
  refine Eq.trans ?_ (logSoftmaxRows_at (V c main_v58) (V c main_v59) (((cfg2.win 2).blk t).view.emb j)
    ⟨t.val * 5000 + (j 0).val, by omega⟩ ⟨(j 1).val, hj1⟩ ?_ ?_).symm
  · exact congrArg (fun z => rowLogSoftmax z (⟨(j 1).val, hj1⟩ : Fin 40))
      (blockRow_eq_biased V c t ⟨(j 0).val, hj0⟩ ⟨t.val * 5000 + (j 0).val, by omega⟩ rfl)
  · show win2_2.index t (0 : Fin 2) * 5000 + 1 * (j 0).val = t.val * 5000 + (j 0).val
    rw [e4]; omega
  · show win2_2.index t (1 : Fin 2) * 40 + 1 * (j 1).val = (j 1).val
    rw [e5]; omega

/-- An index of the result is in point `t`'s block iff each coordinate is in the block's range on its axis. -/
theorem mem_resultBlock (t : Fin cfg2.N) (i : So.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v60).slice (win2_2.rect t)).set ↔ _
  rw [View.set_slice_whole, Rect.mem_set_unit]
  exact Iff.rfl

/-- Every row of the result lies in a block that is written back: row `r` in the block of point `r / 5000`. -/
theorem rows_covered (i : So.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 5000 < cfg2.N := by show (i 0).val / 5000 < 20; omega
  obtain ⟨-, -, -, -, e4, e5⟩ := blockIndex_facts ⟨(i 0).val / 5000, hN⟩
  refine ⟨⟨(i 0).val / 5000, hN⟩, flush2_2 _, ?_⟩
  rw [mem_resultBlock]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 40 ≤ (i 1).val
      ∧ (i 1).val < win2_2.index ⟨(i 0).val / 5000, hN⟩ (1 : Fin 2) * 40 + 40
    rw [e5]; omega

end LogSoftmax

/-- After the third region the result array holds the row-wise log-softmax of the aggregated scores plus the bias row. -/
theorem logSoftmax_array (c : Dev nD) :
    (dat2 V c).arrAt 2 cfg2.N = logSoftmaxRows (V c main_v58) (V c main_v59) :=
  (dat2 V c).arrAt_eq_of_cover 2 (logSoftmaxRows (V c main_v58) (V c main_v59))
    (fun t _ => LogSoftmax.flushed_rows V c t) LogSoftmax.rows_covered

end Cert.Gcn

end
-- ==== Proof.Fold.lean ====
import proofs.«106655_j32229434589355_1_alg».proof.Proof.Gen.KernelIdeal.Frame
import proofs.«106655_j32229434589355_1_alg».proof.Proof.Chains
import proofs.«106655_j32229434589355_1_alg».proof.Proof.FoldNorm
import proofs.«106655_j32229434589355_1_alg».proof.Proof.Layer1
import proofs.«106655_j32229434589355_1_alg».proof.Proof.Layer2
import proofs.«106655_j32229434589355_1_alg».proof.Proof.LogSoftmax
import Idealize.ShloMosaic.Lib.StableHlo.Run

set_option maxRecDepth 16384

noncomputable section

open Idealize.ShloMosaic Idealize.ShloMosaic.TcCoe Idealize.SL.Sem

namespace Cert.Gcn

open Cert.KernelIdeal Cert.KernelIdeal.Gen

variable (m : (ℓ : Loc nD τ sig) → Buf (Elt Ideal) ℓ) (ρ : Dev nD → PrngReg)

/-- After the first region the hidden array holds the features times the first weights. -/
theorem exit0_hidden (c : Dev nD) :
    W4 m ρ c (Proc.devRef .tc main_v30)
      = dense1 (m ((c : Thread nD τ).loc main_arg0)) (m ((c : Thread nD τ).loc main_arg2)) :=
  calc W4 m ρ c (Proc.devRef .tc main_v30)
    _ = (dat0 (V3 m ρ) c).arrAt 2 cfg0.N := W4_arr m ρ c 2
    _ = dense1 (V3 m ρ c main_arg0) (V3 m ρ c main_arg2) := layer1_array (V3 m ρ) c
    _ = dense1 (W3 m ρ c (Proc.devRef .tc main_arg0)) (W3 m ρ c (Proc.devRef .tc main_arg2)) := rfl
    _ = dense1 (m ((c : Thread nD τ).loc main_arg0)) (m ((c : Thread nD τ).loc main_arg2)) := by
          rw [entry0_arg0 m ρ c, entry0_arg2 m ρ c]

theorem exit0_src (c : Dev nD) :
    W4 m ρ c (Proc.devRef .tc main_v3) = srcOf (F := Ideal) (m ((c : Thread nD τ).loc main_arg1)) :=
  (W4_of_ne m ρ c main_v3 (by decide)).trans (entry0_src m ρ c)

theorem exit0_dst (c : Dev nD) :
    W4 m ρ c (Proc.devRef .tc main_v6) = dstOf (F := Ideal) (m ((c : Thread nD τ).loc main_arg1)) :=
  (W4_of_ne m ρ c main_v6 (by decide)).trans (entry0_dst m ρ c)

theorem exit0_norm (c : Dev nD) :
    W4 m ρ c (Proc.devRef .tc main_v29)
      = edgeNorm (F := Ideal) (srcOf (F := Ideal) (m ((c : Thread nD τ).loc main_arg1))) (dstOf (F := Ideal) (m ((c : Thread nD τ).loc main_arg1))) :=
  (W4_of_ne m ρ c main_v29 (by decide)).trans (entry0_norm m ρ c)

theorem exit0_arg3 (c : Dev nD) : W4 m ρ c (Proc.devRef .tc main_arg3) = m ((c : Thread nD τ).loc main_arg3) :=
  (W4_of_ne m ρ c main_arg3 (by decide)).trans (entry0_arg3 m ρ c)
theorem exit0_arg4 (c : Dev nD) : W4 m ρ c (Proc.devRef .tc main_arg4) = m ((c : Thread nD τ).loc main_arg4) :=
  (W4_of_ne m ρ c main_arg4 (by decide)).trans (entry0_arg4 m ρ c)
theorem exit0_arg5 (c : Dev nD) : W4 m ρ c (Proc.devRef .tc main_arg5) = m ((c : Thread nD τ).loc main_arg5) :=
  (W4_of_ne m ρ c main_arg5 (by decide)).trans (entry0_arg5 m ρ c)

/-- A buffer that no operation of a stretch writes keeps its contents over the stretch. -/
local macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first message passing, read off the stretch between the first two regions. -/
theorem entry1_agg_raw (c : Dev nD) :
    W5 m ρ c (Proc.devRef .tc main_v43)
      = aggregate64 (F := Ideal) (W4 m ρ c (Proc.devRef .tc main_v30)) (W4 m ρ c (Proc.devRef .tc main_v3))
          (W4 m ρ c (Proc.devRef .tc main_v6)) (W4 m ρ c (Proc.devRef .tc main_v29)) := by
  show StableHlo.after hostOps1 (W4 m ρ c) (Proc.devRef .tc main_v43) = _
  after_results_simp
  unfold aggregate64 gatherCol scatterCol
  with_reducible rfl

theorem entry1_bias_raw (c : Dev nD) :
    W5 m ρ c (Proc.devRef .tc main_v44)
      = shapeCast S1x64 (W4 m ρ c (Proc.devRef .tc main_arg3)) shapeCasts_S64_S1x64 := by
  show StableHlo.after hostOps1 (W4 m ρ c) (Proc.devRef .tc main_v44) = _
  after_results_simp
  rfl

theorem entry1_src_raw (c : Dev nD) : W5 m ρ c (Proc.devRef .tc main_v3) = W4 m ρ c (Proc.devRef .tc main_v3) :=
  StableHlo.after_of_forall_not_mem (b := Proc.devRef .tc main_v3) _ _ (by not_written hostOps1)
theorem entry1_dst_raw (c : Dev nD) : W5 m ρ c (Proc.devRef .tc main_v6) = W4 m ρ c (Proc.devRef .tc main_v6) :=
  StableHlo.after_of_forall_not_mem (b := Proc.devRef .tc main_v6) _ _ (by not_written hostOps1)
theorem entry1_norm_raw (c : Dev nD) : W5 m ρ c (Proc.devRef .tc main_v29) = W4 m ρ c (Proc.devRef .tc main_v29) :=
  StableHlo.after_of_forall_not_mem (b := Proc.devRef .tc main_v29) _ _ (by not_written hostOps1)
theorem entry1_arg4_raw (c : Dev nD) : W5 m ρ c (Proc.devRef .tc main_arg4) = W4 m ρ c (Proc.devRef .tc main_arg4) :=
  StableHlo.after_of_forall_not_mem (b := Proc.devRef .tc main_arg4) _ _ (by not_written hostOps1)
theorem entry1_arg5_raw (c : Dev nD) : W5 m ρ c (Proc.devRef .tc main_arg5) = W4 m ρ c (Proc.devRef .tc main_arg5) :=
  StableHlo.after_of_forall_not_mem (b := Proc.devRef .tc main_arg5) _ _ (by not_written hostOps1)

/-- After the second region its output holds the second dense stage of what the stretch before it left. -/
theorem exit1_out_raw (c : Dev nD) :
    W6 m ρ c (Proc.devRef .tc main_v45)
      = dense2 (W5 m ρ c (Proc.devRef .tc main_v43)) (W5 m ρ c (Proc.devRef .tc main_v44)) (W5 m ρ c (Proc.devRef .tc main_arg4)) :=
  calc W6 m ρ c (Proc.devRef .tc main_v45)
    _ = (dat1 (V5 m ρ) c).arrAt 3 cfg1.N := W6_arr m ρ c 3
    _ = dense2 (V5 m ρ c main_v43) (V5 m ρ c main_v44) (V5 m ρ c main_arg4) := layer2_array (V5 m ρ) c
    _ = dense2 (W5 m ρ c (Proc.devRef .tc main_v43)) (W5 m ρ c (Proc.devRef .tc main_v44)) (W5 m ρ c (Proc.devRef .tc main_arg4)) := rfl

theorem exit1_src_raw (c : Dev nD) : W6 m ρ c (Proc.devRef .tc main_v3) = W5 m ρ c (Proc.devRef .tc main_v3) :=
  W6_of_ne m ρ c main_v3 (by decide)
theorem exit1_dst_raw (c : Dev nD) : W6 m ρ c (Proc.devRef .tc main_v6) = W5 m ρ c (Proc.devRef .tc main_v6) :=
  W6_of_ne m ρ c main_v6 (by decide)
theorem exit1_norm_raw (c : Dev nD) : W6 m ρ c (Proc.devRef .tc main_v29) = W5 m ρ c (Proc.devRef .tc main_v29) :=
  W6_of_ne m ρ c main_v29 (by decide)
theorem exit1_arg5_raw (c : Dev nD) : W6 m ρ c (Proc.devRef .tc main_arg5) = W5 m ρ c (Proc.devRef .tc main_arg5) :=
  W6_of_ne m ρ c main_arg5 (by decide)

/-- The second message passing, read off the stretch between the last two regions. -/
theorem entry2_agg_raw (c : Dev nD) :
    W7 m ρ c (Proc.devRef .tc main_v58)
      = aggregate40 (F := Ideal) (W6 m ρ c (Proc.devRef .tc main_v45)) (W6 m ρ c (Proc.devRef .tc main_v3))
          (W6 m ρ c (Proc.devRef .tc main_v6)) (W6 m ρ c (Proc.devRef .tc main_v29)) := by
  show StableHlo.after hostOps2 (W6 m ρ c) (Proc.devRef .tc main_v58) = _
  after_results_simp
  unfold aggregate40 gatherCol scatterCol
  with_reducible rfl

theorem entry2_bias_raw (c : Dev nD) :
    W7 m ρ c (Proc.devRef .tc main_v59)
      = shapeCast S1x40 (W6 m ρ c (Proc.devRef .tc main_arg5)) shapeCasts_S40_S1x40 := by
  show StableHlo.after hostOps2 (W6 m ρ c) (Proc.devRef .tc main_v59) = _
  after_results_simp
  rfl

/-- After the last region the result holds the rows' log-softmax of what the stretch before it left. -/
theorem exit2_out_raw (c : Dev nD) :
    W8 m ρ c (Proc.devRef .tc main_v60)
      = logSoftmaxRows (W7 m ρ c (Proc.devRef .tc main_v58)) (W7 m ρ c (Proc.devRef .tc main_v59)) :=
  calc W8 m ρ c (Proc.devRef .tc main_v60)
    _ = (dat2 (V7 m ρ) c).arrAt 2 cfg2.N := W8_arr m ρ c 2
    _ = logSoftmaxRows (V7 m ρ c main_v58) (V7 m ρ c main_v59) := logSoftmax_array (V7 m ρ) c
    _ = logSoftmaxRows (W7 m ρ c (Proc.devRef .tc main_v58)) (W7 m ρ c (Proc.devRef .tc main_v59)) := rfl

/-- The result array at the last boundary is the whole network of the six argument arrays as launched: each region's output by its
    whole-array lemma, each host stretch read off the fold with the message-passing chains closed. -/
theorem result_read (c : Dev nD) :
    W8 m ρ c (Proc.devRef .tc main_v60)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [exit2_out_raw m ρ c, entry2_agg_raw m ρ c, entry2_bias_raw m ρ c,
    exit1_out_raw m ρ c, exit1_src_raw m ρ c, exit1_dst_raw m ρ c, exit1_norm_raw m ρ c, exit1_arg5_raw m ρ c,
    entry1_agg_raw m ρ c, entry1_bias_raw m ρ c, entry1_src_raw m ρ c, entry1_dst_raw m ρ c, entry1_norm_raw m ρ c,
    entry1_arg4_raw m ρ c, entry1_arg5_raw m ρ c,
    exit0_hidden m ρ c, exit0_src m ρ c, exit0_dst m ρ c, exit0_norm m ρ c, exit0_arg3 m ρ c, exit0_arg4 m ρ c, exit0_arg5 m ρ c]
  unfold network
  with_reducible rfl

end Cert.Gcn

end
-- ==== Proof.RefSide.lean ====
/-
  The reference side. Its @main is one straight line of host operations; its run ends with every buffer at the fold of their
  results over the launch contents. That fold is read at the result buffer in two steps — the seven operations that build the two
  endpoint lists (the only concatenations), then the remaining operations over whatever those left — and lands on the reference's
  stages one operation at a time. The stages are then recognised:
  * its message-passing stretches ARE the shared chains of Chains.lean (the same operations in the same order: by unfolding);
  * its first dot_general is `dense1`; its bias, rectifier and second dot_general are `dense2`; its log_softmax is
    `logSoftmaxRows` — a reduce-max from −∞ is the fold of max from −∞, and taking the maximum with −∞ once more changes nothing,
    since the fold already starts there; its reduce-add from zero is the sum.
-/
import proofs.«106655_j32229434589355_1_alg».proof.Proof.RefRun
import proofs.«106655_j32229434589355_1_alg».proof.Proof.RefRead
import proofs.«106655_j32229434589355_1_alg».proof.Proof.Chains
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Mathlib.Data.Finset.Fold

set_option maxRecDepth 16384

noncomputable section

open Idealize.ShloMosaic Idealize.ShloMosaic.TcCoe Idealize.SL.Sem Idealize.ShloMosaic.StableHlo Idealize.ShloMosaic.ValueIdx

namespace Cert.Gcn

open Cert.ReferenceIdeal Cert.ReferenceIdeal.Gen Cert.ReferenceIdeal.Value Cert.ReferenceIdeal.Read

/-! ## The fold, read at the result -/

section Fold

variable {F : FTy → Type} [FloatOps F]

/-- The line cut after the two concatenations. -/
theorem ops_cut : (ops : List (HloOp τ sig (Elt F))) = (ops (F := F)).take 7 ++ (ops (F := F)).drop 7 :=
  (List.take_append_drop 7 _).symm

theorem head_src (V : Valuation τ sig (Elt F)) :
    after ((ops (F := F)).take 7) V (Proc.devRef .tc main_v3) = val_main_v3 (F := F) (V (Proc.devRef .tc main_arg1)) := by
  simp only [ops, List.take_succ_cons, List.take_zero]
  after_results
  rfl

theorem head_dst (V : Valuation τ sig (Elt F)) :
    after ((ops (F := F)).take 7) V (Proc.devRef .tc main_v6) = val_main_v6 (F := F) (V (Proc.devRef .tc main_arg1)) := by
  simp only [ops, List.take_succ_cons, List.take_zero]
  after_results
  rfl

theorem head_arg0 (V : Valuation τ sig (Elt F)) :
    after ((ops (F := F)).take 7) V (Proc.devRef .tc main_arg0) = V (Proc.devRef .tc main_arg0) := by
  simp only [ops, List.take_succ_cons, List.take_zero]
  after_results
theorem head_arg2 (V : Valuation τ sig (Elt F)) :
    after ((ops (F := F)).take 7) V (Proc.devRef .tc main_arg2) = V (Proc.devRef .tc main_arg2) := by
  simp only [ops, List.take_succ_cons, List.take_zero]
  after_results
theorem head_arg3 (V : Valuation τ sig (Elt F)) :
    after ((ops (F := F)).take 7) V (Proc.devRef .tc main_arg3) = V (Proc.devRef .tc main_arg3) := by
  simp only [ops, List.take_succ_cons, List.take_zero]
  after_results
theorem head_arg4 (V : Valuation τ sig (Elt F)) :
    after ((ops (F := F)).take 7) V (Proc.devRef .tc main_arg4) = V (Proc.devRef .tc main_arg4) := by
  simp only [ops, List.take_succ_cons, List.take_zero]
  after_results
theorem head_arg5 (V : Valuation τ sig (Elt F)) :
    after ((ops (F := F)).take 7) V (Proc.devRef .tc main_arg5) = V (Proc.devRef .tc main_arg5) := by
  simp only [ops, List.take_succ_cons, List.take_zero]
  after_results

set_option maxHeartbeats 52400000 in
/-- The result buffer after the whole line is the last stage of the argument arrays. -/
theorem after_result (V : Valuation τ sig (Elt F)) :
    after (ops (F := F)) V (Proc.devRef .tc main_v88)
      = val_main_v88 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_cut, StableHlo.after_append]
  have h3 := head_src V
  have h6 := head_dst V
  have a0 := head_arg0 V
  have a2 := head_arg2 V
  have a3 := head_arg3 V
  have a4 := head_arg4 V
  have a5 := head_arg5 V
  generalize after ((ops (F := F)).take 7) V = W at h3 h6 a0 a2 a3 a4 a5 ⊢
  simp only [ops, List.drop_succ_cons, List.drop_zero]
  after_results_simp
  simp only [h3, h6, a0, a2, a3, a4, a5, TRef.ofBuf, TRef.toBuf, cast_eq]
  rfl

set_option maxHeartbeats 52400000 in
theorem after_arg (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) :=
  ⟨by after_results_simp <;> rfl, by after_results_simp <;> rfl, by after_results_simp <;> rfl,
   by after_results_simp <;> rfl, by after_results_simp <;> rfl, by after_results_simp <;> rfl⟩

/-! ## The message-passing stretches are the shared chains -/

theorem ref_src (x1 : (⟨S2x1600000, .i32⟩ : BufTy).Contents (Elt F)) : val_main_v3 (F := F) x1 = srcOf (F := F) x1 := rfl
theorem ref_dst (x1 : (⟨S2x1600000, .i32⟩ : BufTy).Contents (Elt F)) : val_main_v6 (F := F) x1 = dstOf (F := F) x1 := rfl
theorem ref_norm (x1 : (⟨S2x1600000, .i32⟩ : BufTy).Contents (Elt F)) :
    val_main_v30 (F := F) x1 = edgeNorm (F := F) (srcOf (F := F) x1) (dstOf (F := F) x1) := rfl
theorem ref_norm' (x1 : (⟨S2x1600000, .i32⟩ : BufTy).Contents (Elt F)) :
    val_main_v71 (F := F) x1 = edgeNorm (F := F) (srcOf (F := F) x1) (dstOf (F := F) x1) := rfl
theorem ref_agg64 (x0 : (⟨S100000x128, .f32⟩ : BufTy).Contents (Elt F)) (x1 : (⟨S2x1600000, .i32⟩ : BufTy).Contents (Elt F)) (x2 : (⟨S128x64, .f32⟩ : BufTy).Contents (Elt F)) :
    val_main_v43 (F := F) x0 x1 x2
      = aggregate64 (F := F) (val_main_v7 (F := F) x0 x2) (srcOf (F := F) x1) (dstOf (F := F) x1) (edgeNorm (F := F) (srcOf (F := F) x1) (dstOf (F := F) x1)) := rfl
theorem ref_agg40 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x40, .f32⟩ : BufTy).Contents (Elt F)) :
    val_main_v84 (F := F) x0 x1 x2 x3 x4
      = aggregate40 (F := F) (val_main_v48 (F := F) x0 x1 x2 x3 x4) (srcOf (F := F) x1) (dstOf (F := F) x1) (edgeNorm (F := F) (srcOf (F := F) x1) (dstOf (F := F) x1)) := rfl

end Fold

/-! ## The dense stages, index by index (at the ideal instance) -/

section Dense

theorem lidx7_eq (i : S100000x64.Idx) (k : Fin 128) : lidx_main_v7 i k = ix2 ⟨(i 0).val, (i 0).isLt⟩ k :=
  funext fun a => by match a with | ⟨0, _⟩ => rfl | ⟨1, _⟩ => rfl
theorem ridx7_eq (i : S100000x64.Idx) (k : Fin 128) : ridx_main_v7 i k = ix2 k ⟨(i 1).val, (i 1).isLt⟩ :=
  funext fun a => by match a with | ⟨0, _⟩ => rfl | ⟨1, _⟩ => rfl
theorem lidx48_eq (i : S100000x40.Idx) (k : Fin 64) : lidx_main_v48 i k = ix2 ⟨(i 0).val, (i 0).isLt⟩ k :=
  funext fun a => by match a with | ⟨0, _⟩ => rfl | ⟨1, _⟩ => rfl
theorem ridx48_eq (i : S100000x40.Idx) (k : Fin 64) : ridx_main_v48 i k = ix2 k ⟨(i 1).val, (i 1).isLt⟩ :=
  funext fun a => by match a with | ⟨0, _⟩ => rfl | ⟨1, _⟩ => rfl

/-- The reference's first dot_general is the features times the first weights. -/
theorem ref_dense1 (x0 : (⟨S100000x128, .f32⟩ : BufTy).Contents (Elt Ideal)) (x2 : (⟨S128x64, .f32⟩ : BufTy).Contents (Elt Ideal)) :
    val_main_v7 (F := Ideal) x0 x2 = dense1 x0 x2 := by
  funext i
  rw [val_main_v7_apply]
  show _ = ∑ k : Fin 128, x0 (ix2 ⟨(i 0).val, (i 0).isLt⟩ k) * x2 (ix2 k ⟨(i 1).val, (i 1).isLt⟩)
  exact Finset.sum_congr rfl fun k _ => by rw [lidx7_eq, ridx7_eq]; rfl

/-- The bias [64] read as the row [1, 64]: the reference broadcasts it along a new leading axis, the kernel program reshapes it. -/
theorem ref_row64 (x3 : (⟨S64, .f32⟩ : BufTy).Contents (Elt Ideal)) (j : S100000x64.Idx) :
    val_main_v45 (F := Ideal) x3 j
      = shapeCast Cert.KernelIdeal.S1x64 x3 Cert.KernelIdeal.Gen.shapeCasts_S64_S1x64 (ix2 ⟨0, Nat.one_pos⟩ ⟨(j 1).val, (j 1).isLt⟩) := by
  rw [val_main_v45_apply, val_main_v44_apply]
  refine (congrArg x3 ?_).trans (ValueIdx.shapeCast_a_1a_apply x3 _ ⟨0, Nat.one_pos⟩ ⟨(j 1).val, (j 1).isLt⟩).symm
  exact funext fun a => by match a with | ⟨0, _⟩ => rfl

/-- The reference's bias, rectifier and second dot_general are `dense2` of the aggregated hidden features. -/
theorem ref_dense2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) :
    val_main_v48 (F := Ideal) x0 x1 x2 x3 x4
      = dense2 (val_main_v43 (F := Ideal) x0 x1 x2) (shapeCast Cert.KernelIdeal.S1x64 x3 Cert.KernelIdeal.Gen.shapeCasts_S64_S1x64) x4 := by
  funext i
  rw [val_main_v48_apply]
  show _ = ∑ k : Fin 64, max (val_main_v43 (F := Ideal) x0 x1 x2 (ix2 ⟨(i 0).val, (i 0).isLt⟩ k)
      + shapeCast Cert.KernelIdeal.S1x64 x3 Cert.KernelIdeal.Gen.shapeCasts_S64_S1x64 (ix2 ⟨0, Nat.one_pos⟩ k)) (Ideal.ofBits .f32 0x00000000#32)
      * x4 (ix2 k ⟨(i 1).val, (i 1).isLt⟩)
  refine Finset.sum_congr rfl fun k _ => ?_
  rw [val_main_v47_apply, val_main_v46_apply, ref_row64, val_main_call1_v0_apply, val_main_call1_cst_apply, lidx48_eq, ridx48_eq]
  rfl

end Dense

/-! ## The log-softmax, row by row -/

section LogSoftmax

/-- The bias [40] read as the row [1, 40]. -/
theorem ref_row40 (x5 : (⟨S40, .f32⟩ : BufTy).Contents (Elt Ideal)) (j : S100000x40.Idx) :
    val_main_v86 (F := Ideal) x5 j
      = shapeCast Cert.KernelIdeal.S1x40 x5 Cert.KernelIdeal.Gen.shapeCasts_S40_S1x40 (ix2 ⟨0, Nat.one_pos⟩ ⟨(j 1).val, (j 1).isLt⟩) := by
  rw [val_main_v86_apply, val_main_v85_apply]
  refine (congrArg x5 ?_).trans (ValueIdx.shapeCast_a_1a_apply x5 _ ⟨0, Nat.one_pos⟩ ⟨(j 1).val, (j 1).isLt⟩).symm
  exact funext fun a => by match a with | ⟨0, _⟩ => rfl

variable (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal))

set_option maxHeartbeats 400000 in
/-- The scores plus the bias, at an index. -/
theorem ref_biased (r : Fin 100000) (q : Fin 40) :
    val_main_v87 (F := Ideal) x0 x1 x2 x3 x4 x5 (ix2 r q) = biased (val_main_v84 (F := Ideal) x0 x1 x2 x3 x4) (shapeCast Cert.KernelIdeal.S1x40 x5 Cert.KernelIdeal.Gen.shapeCasts_S40_S1x40) r q := by
  rw [val_main_v87_apply, ref_row40]
  generalize (val_main_v84 (F := Ideal) x0 x1 x2 x3 x4) = a
  rfl

/-- The row of `y` an index lies in, and its maximum from −∞. -/
def rowOf (y : (⟨S100000x40, .f32⟩ : BufTy).Contents (Elt Ideal)) (r : Fin 100000) : Fin 40 → EReal := fun q => y (ix2 r q)
def rowMaxOf (y : (⟨S100000x40, .f32⟩ : BufTy).Contents (Elt Ideal)) (r : Fin 100000) : EReal :=
  (Finset.univ : Finset (Fin 40)).fold max (Ideal.ofBits .f32 0xFF800000#32) (rowOf y r)

/-- A row of `y` read through the index a reduction over the columns inserts. -/
theorem lift_row (y : (⟨S100000x40, .f32⟩ : BufTy).Contents (Elt Ideal)) (r : S100000.Idx) (h : S100000x40.Reduces [1] S100000) :
    (y ∘ h.lift r) = rowOf y ⟨(r 0).val, (r 0).isLt⟩ :=
  funext fun k => congrArg y (funext fun a => Fin.ext (by match a with | ⟨0, _⟩ => rfl | ⟨1, _⟩ => rfl))

/-- The maximum with the value a fold of max starts from changes nothing. -/
theorem max_start_fold (c : EReal) (f : Fin 40 → EReal) :
    max c ((Finset.univ : Finset (Fin 40)).fold max c f) = (Finset.univ : Finset (Fin 40)).fold max c f :=
  max_eq_right ((Finset.le_fold_max c).mpr (Or.inl le_rfl))

set_option maxHeartbeats 400000 in
/-- The reference's row maximum — a reduce from −∞, then once more the maximum with −∞ — is the fold of max from −∞. -/
theorem ref_rowMax (r : S100000.Idx) :
    val_main_call3_v2 (F := Ideal) x0 x1 x2 x3 x4 x5 r = rowMaxOf (val_main_v87 (F := Ideal) x0 x1 x2 x3 x4 x5) ⟨(r 0).val, (r 0).isLt⟩ := by
  rw [val_main_call3_v2_apply, val_main_call3_v1_apply, val_main_call3_cst_0_apply]
  unfold val_main_call3_v0
  generalize (val_main_v87 (F := Ideal) x0 x1 x2 x3 x4 x5) = y
  refine (congrArg _ (Host.reduce_eq_fold_single _ y _ _ (by decide) _ r)).trans ?_
  rw [lift_row y r]
  exact max_start_fold _ _

set_option maxHeartbeats 400000 in
/-- A score about its row's maximum. -/
theorem ref_shifted (j : S100000x40.Idx) :
    val_main_call3_v5 (F := Ideal) x0 x1 x2 x3 x4 x5 j = (val_main_v87 (F := Ideal) x0 x1 x2 x3 x4 x5) j - rowMaxOf (val_main_v87 (F := Ideal) x0 x1 x2 x3 x4 x5) ⟨(j 0).val, (j 0).isLt⟩ := by
  rw [val_main_call3_v5_apply, val_main_call3_v4_apply, val_main_call3_v3_apply, ref_rowMax]
  generalize (val_main_v87 (F := Ideal) x0 x1 x2 x3 x4 x5) = y
  rfl

set_option maxHeartbeats 400000 in
/-- The reference's log_softmax in terms of the biased scores. -/
theorem ref_logSoftmax_of (i : S100000x40.Idx) :
    val_main_v88 (F := Ideal) x0 x1 x2 x3 x4 x5 i
      = ((val_main_v87 (F := Ideal) x0 x1 x2 x3 x4 x5) i - rowMaxOf (val_main_v87 (F := Ideal) x0 x1 x2 x3 x4 x5) ⟨(i 0).val, (i 0).isLt⟩)
        - Ideal.log (∑ q : Fin 40, Ideal.exp (rowOf (val_main_v87 (F := Ideal) x0 x1 x2 x3 x4 x5) ⟨(i 0).val, (i 0).isLt⟩ q - rowMaxOf (val_main_v87 (F := Ideal) x0 x1 x2 x3 x4 x5) ⟨(i 0).val, (i 0).isLt⟩)) := by
  rw [val_main_v88_apply, ref_shifted, val_main_call3_v10_apply, val_main_call3_v9_apply, val_main_call3_v8_apply, val_main_call3_v7_apply,
    val_main_call3_cst_1_apply]
  have hs : ∀ k : Fin 40, val_main_call3_v6 (F := Ideal) x0 x1 x2 x3 x4 x5 (idx_main_call3_v7 (idx_main_call3_v8 (idx_main_call3_v10 i)) k)
      = Ideal.exp (rowOf (val_main_v87 (F := Ideal) x0 x1 x2 x3 x4 x5) ⟨(i 0).val, (i 0).isLt⟩ k - rowMaxOf (val_main_v87 (F := Ideal) x0 x1 x2 x3 x4 x5) ⟨(i 0).val, (i 0).isLt⟩) := fun k => by
    rw [val_main_call3_v6_apply, ref_shifted,
      show idx_main_call3_v7 (idx_main_call3_v8 (idx_main_call3_v10 i)) k = ix2 ⟨(i 0).val, (i 0).isLt⟩ k from
        funext fun a => by match a with | ⟨0, _⟩ => rfl | ⟨1, _⟩ => rfl]
    generalize (val_main_v87 (F := Ideal) x0 x1 x2 x3 x4 x5) = y
    rfl
  rw [Finset.sum_congr rfl fun k _ => hs k]
  generalize (val_main_v87 (F := Ideal) x0 x1 x2 x3 x4 x5) = y
  show _ - Ideal.log (Ideal.ofBits .f32 0x00000000#32 + _) = _
  rw [Ideal.ofBits_zero_f32, zero_add]

set_option maxHeartbeats 400000 in
/-- The reference's log_softmax is `logSoftmaxRows` of the aggregated scores and the bias row. -/
theorem ref_logSoftmax :
    val_main_v88 (F := Ideal) x0 x1 x2 x3 x4 x5 = logSoftmaxRows (val_main_v84 (F := Ideal) x0 x1 x2 x3 x4) (shapeCast Cert.KernelIdeal.S1x40 x5 Cert.KernelIdeal.Gen.shapeCasts_S40_S1x40) := by
  funext i
  rw [ref_logSoftmax_of]
  have hrow : rowOf (val_main_v87 (F := Ideal) x0 x1 x2 x3 x4 x5) ⟨(i 0).val, (i 0).isLt⟩ = biased (val_main_v84 (F := Ideal) x0 x1 x2 x3 x4) (shapeCast Cert.KernelIdeal.S1x40 x5 Cert.KernelIdeal.Gen.shapeCasts_S40_S1x40) ⟨(i 0).val, (i 0).isLt⟩ :=
    funext fun q => ref_biased x0 x1 x2 x3 x4 x5 _ q
  have hi : (val_main_v87 (F := Ideal) x0 x1 x2 x3 x4 x5) i = biased (val_main_v84 (F := Ideal) x0 x1 x2 x3 x4) (shapeCast Cert.KernelIdeal.S1x40 x5 Cert.KernelIdeal.Gen.shapeCasts_S40_S1x40) ⟨(i 0).val, (i 0).isLt⟩ ⟨(i 1).val, (i 1).isLt⟩ :=
    (congrArg (val_main_v87 (F := Ideal) x0 x1 x2 x3 x4 x5) (funext fun a => by match a with | ⟨0, _⟩ => rfl | ⟨1, _⟩ => rfl)).trans (ref_biased x0 x1 x2 x3 x4 x5 _ _)
  unfold rowMaxOf
  rw [hrow, hi]
  generalize (val_main_v84 (F := Ideal) x0 x1 x2 x3 x4) = a
  rfl

end LogSoftmax

/-! ## The reference computes the network -/

section Network

/-- The reference's last stage is `network` of the six arguments. -/
theorem ref_network (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 : (⟨S64, .f32⟩ : BufTy).Contents (Elt Ideal)) (x4 : (⟨S64x40, .f32⟩ : BufTy).Contents (Elt Ideal)) (x5 : (⟨S40, .f32⟩ : BufTy).Contents (Elt Ideal)) :
    val_main_v88 (F := Ideal) x0 x1 x2 x3 x4 x5 = network x0 x1 x2 x3 x4 x5 := by
  rw [ref_logSoftmax, ref_agg40, ref_dense2, ref_agg64, ref_dense1]
  rfl

/-- The reference's run: every weakly fair execution terminates, nothing faulting, with the result array at `network` of the
    argument arrays as launched and the argument arrays unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88)
          = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v88).trans ((after_result (F := Ideal) (launchContents m c)).trans (ref_network _ _ _ _ _ _)),
       (h c main_arg0).trans (after_arg (F := Ideal) (launchContents m c)).1,
       (h c main_arg1).trans (after_arg (F := Ideal) (launchContents m c)).2.1,
       (h c main_arg2).trans (after_arg (F := Ideal) (launchContents m c)).2.2.1,
       (h c main_arg3).trans (after_arg (F := Ideal) (launchContents m c)).2.2.2.1,
       (h c main_arg4).trans (after_arg (F := Ideal) (launchContents m c)).2.2.2.2.1,
       (h c main_arg5).trans (after_arg (F := Ideal) (launchContents m c)).2.2.2.2.2⟩)
    (run_folded (F := Ideal) m ρ)

end Network

end Cert.Gcn

end
-- ==== Proof.lean ====
/-
  The certificate of a two-layer graph convolution with a log-softmax head: a kernel program of three blocked stages
  (features × W₁; bias, rectifier, × W₂; bias, row-wise log-softmax) joined by host-side message passing, against the
  plain reference that applies the same stages to whole arrays.

  At the ideal instance both programs compute ONE function of the six argument arrays, `Cert.Gcn.network`:
    log_softmax_rows (A · (max (A · (X W₁) + b₁) 0) W₂ + b₂),   A = the normalised adjacency with self loops,
  where A is applied by gather, scale and scatter-add in exactly the same host operations on both sides (kept closed throughout).
  * The kernel side: each region's output array is a whole-array function of the arrays it finds, because every block of
    5000 rows it writes back depends only on the same rows of its input and the twenty blocks tile the array; its matrix
    product into a zero accumulator is the sum over the contraction index, its bf16 casts are the identity, its lane maximum and
    lane sum are the fold and the sum over the forty columns. The buffer contents are then walked through @main's host stretches.
  * The reference side: the host's dot_general is the same sum, its reduce-max the same fold (its extra maximum with −∞ changes
    nothing, the fold starting from −∞ already), its reduce-add the same sum.
  No law of arithmetic beyond these readings is used, so the precondition (finite inputs) is never opened.
  `preserves` has no entry: the idealised kernel is the kernel's own text read at the ideal instance.
-/
import proofs.«106655_j32229434589355_1_alg».proof.Defs
import proofs.«106655_j32229434589355_1_alg».proof.Proof.Gen.Kernel.Frame
import proofs.«106655_j32229434589355_1_alg».proof.Proof.Gen.KernelIdeal.Frame
import proofs.«106655_j32229434589355_1_alg».proof.Proof.Gen.ReferenceIdeal
import proofs.«106655_j32229434589355_1_alg».proof.Proof.Gen.Pre_finite_inputs
import proofs.«106655_j32229434589355_1_alg».proof.Proof.LaunchOut
import proofs.«106655_j32229434589355_1_alg».proof.Proof.Fold
import proofs.«106655_j32229434589355_1_alg».proof.Proof.RefSide

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gcn.ref_run m ρ)

/-- Both programs end with the result array at `network` of the argument arrays, which agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.result_read m ρ c), (h c).2⟩)
      (Cert.KernelIdeal.GenOut.run_out (F := Ideal) m ρ)
  · refine (θ_run Cert.ReferenceIdeal.defs _ _).mono (fun _ h c => ⟨(h c).1.trans ?_, (h c).2⟩) (Cert.Gcn.ref_run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
